-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S40000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S5000x128 : Shape := ⟨2, ![5000, 128]⟩
abbrev S680000x128 : Shape := ⟨2, ![680000, 128]⟩
abbrev S1x128 : Shape := ⟨2, ![1, 128]⟩
abbrev S40000x64 : Shape := ⟨2, ![40000, 64]⟩
abbrev S5000x64 : Shape := ⟨2, ![5000, 64]⟩
abbrev S680000x64 : Shape := ⟨2, ![680000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S40000, .f32⟩
  | .hbm, ⟨23, _⟩ => ⟨S_, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S_, .i32⟩
  | .hbm, ⟨28, _⟩ => ⟨S680000, .i32⟩
  | .hbm, ⟨29, _⟩ => ⟨S680000, .i1⟩
  | .hbm, ⟨30, _⟩ => ⟨S_, .i32⟩
  | .hbm, ⟨31, _⟩ => ⟨S680000, .i32⟩
  | .hbm, ⟨32, _⟩ => ⟨S680000, .i32⟩
  | .hbm, ⟨33, _⟩ => ⟨S680000, .i32⟩
  | .hbm, ⟨34, _⟩ => ⟨S680000x1, .i32⟩
  | .hbm, ⟨35, _⟩ => ⟨S680000, .f32⟩
  | .hbm, ⟨36, _⟩ => ⟨S_, .i32⟩
  | .hbm, ⟨37, _⟩ => ⟨S680000, .i32⟩
  | .hbm, ⟨38, _⟩ => ⟨S680000, .i1⟩
  | .hbm, ⟨39, _⟩ => ⟨S_, .i32⟩
  | .hbm, ⟨40, _⟩ => ⟨S680000, .i32⟩
  | .hbm, ⟨41, _⟩ => ⟨S680000, .i32⟩
  | .hbm, ⟨42, _⟩ => ⟨S680000, .i32⟩
  | .hbm, ⟨43, _⟩ => ⟨S680000x1, .i32⟩
  | .hbm, ⟨44, _⟩ => ⟨S680000, .f32⟩
  | .hbm, ⟨45, _⟩ => ⟨S680000, .f32⟩
  | .hbm, ⟨46, _⟩ => ⟨S40000x128, .f32⟩
  | .hbm, ⟨47, _⟩ => ⟨S_, .i32⟩
  | .hbm, ⟨48, _⟩ => ⟨S680000, .i32⟩
  | .hbm, ⟨49, _⟩ => ⟨S680000, .i1⟩
  | .hbm, ⟨50, _⟩ => ⟨S_, .i32⟩
  | .hbm, ⟨51, _⟩ => ⟨S680000, .i32⟩
  | .hbm, ⟨52, _⟩ => ⟨S680000, .i32⟩
  | .hbm, ⟨53, _⟩ => ⟨S680000, .i32⟩
  | .hbm, ⟨54, _⟩ => ⟨S680000x1, .i32⟩
  | .hbm, ⟨55, _⟩ => ⟨S680000x128, .f32⟩
  | .hbm, ⟨56, _⟩ => ⟨S680000x1, .f32⟩
  | .hbm, ⟨57, _⟩ => ⟨S680000x128, .f32⟩
  | .hbm, ⟨58, _⟩ => ⟨S680000x128, .f32⟩
  | .hbm, ⟨59, _⟩ => ⟨S_, .f32⟩
  | .hbm, ⟨60, _⟩ => ⟨S40000x128, .f32⟩
  | .hbm, ⟨61, _⟩ => ⟨S680000x1, .i32⟩
  | .hbm, ⟨62, _⟩ => ⟨S40000x128, .f32⟩
  | .hbm, ⟨63, _⟩ => ⟨S1x128, .f32⟩
  | .hbm, ⟨64, _⟩ => ⟨S40000x128, .f32⟩
  | .hbm, ⟨65, _⟩ => ⟨S40000x128, .f32⟩
  | .hbm, ⟨66, _⟩ => ⟨S_, .f32⟩
  | .hbm, ⟨67, _⟩ => ⟨S40000x128, .f32⟩
  | .hbm, ⟨68, _⟩ => ⟨S40000x128, .f32⟩
  | .hbm, ⟨69, _⟩ => ⟨S40000x64, .f32⟩
  | .hbm, ⟨70, _⟩ => ⟨S_, .i32⟩
  | .hbm, ⟨71, _⟩ => ⟨S680000, .i32⟩
  | .hbm, ⟨72, _⟩ => ⟨S680000, .i1⟩
  | .hbm, ⟨73, _⟩ => ⟨S_, .i32⟩
  | .hbm, ⟨74, _⟩ => ⟨S680000, .i32⟩
  | .hbm, ⟨75, _⟩ => ⟨S680000, .i32⟩
  | .hbm, ⟨76, _⟩ => ⟨S680000, .i32⟩
  | .hbm, ⟨77, _⟩ => ⟨S680000x1, .i32⟩
  | .hbm, ⟨78, _⟩ => ⟨S680000x64, .f32⟩
  | .hbm, ⟨79, _⟩ => ⟨S680000x1, .f32⟩
  | .hbm, ⟨80, _⟩ => ⟨S680000x64, .f32⟩
  | .hbm, ⟨81, _⟩ => ⟨S680000x64, .f32⟩
  | .hbm, ⟨82, _⟩ => ⟨S_, .f32⟩
  | .hbm, ⟨83, _⟩ => ⟨S40000x64, .f32⟩
  | .hbm, ⟨84, _⟩ => ⟨S680000x1, .i32⟩
  | .hbm, ⟨85, _⟩ => ⟨S40000x64, .f32⟩
  | .hbm, ⟨86, _⟩ => ⟨S1x64, .f32⟩
  | .hbm, ⟨87, _⟩ => ⟨S40000x64, .f32⟩
  | .hbm, ⟨88, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S680000x1_S680000x64_0_1 : S680000x1.BroadcastsInDim S680000x64 (![0, 1] : Fin 2 → Fin S680000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S5000x128_S128x128_S5000x128_1_0_0_1_n_n_wf : DotDims.WF S5000x128 S128x128 S5000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S5000x128_S128x64_S5000x64_1_0_0_1_n_n_wf : DotDims.WF S5000x128 S128x64 S5000x64 [1] [0] [0] [1] [] []
  gather_S40000x64_S680000x1_S680000x64_1_0_n_n_0_1_164_wf : GatherDims.WF S40000x64 S680000x1 S680000x64 [1] [0] [] [0] [] 1 ![1, 64]
  scatter_S40000x64_S680000x1_S680000x64_1_0_0_1_wf : ScatterDims.WF S40000x64 S680000x1 S680000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S40000x64.size a
  hwx1_2 : ∀ i : grid1.Coords, EltTy.bits .f32 = 32 ∨ (Rect.block (s := S40000x64) S5000x64.size (cc1_transform_2 i) (hinb1_2 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S40000x64_S680000x1_S680000x64_1_0_n_n_0_1_164 : GatherDims S40000x64 S680000x1 S680000x64 where
  offsetDims := [1]
  collapsedSliceDims := [0]
  operandBatchingDims := []
  startIndicesBatchingDims := []
  startIndexMap := [0]
  indexVectorDim := 1
  sliceSizes := ![1, 64]
  wf := gather_S40000x64_S680000x1_S680000x64_1_0_n_n_0_1_164_wf
def scatter_S40000x64_S680000x1_S680000x64_1_0_0_1 : ScatterDims S40000x64 S680000x1 S680000x64 where
  updateWindowDims := [1]
  insertedWindowDims := [0]
  scatterDimsToOperandDims := [0]
  indexVectorDim := 1
  wf := scatter_S40000x64_S680000x1_S680000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S40000x64 : Shape := ⟨2, ![40000, 64]⟩
abbrev S680000x64 : Shape := ⟨2, ![680000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S40000x128, .f32⟩
  | 1 => ⟨S2x640000, .i32⟩
  | 2 => ⟨S128x128, .f32⟩
  | 3 => ⟨S128, .f32⟩
  | 4 => ⟨S128x64, .f32⟩
  | 5 => ⟨S64, .f32⟩
  | 6 => ⟨S40000, .i32⟩
  | 7 => ⟨S1x640000, .i32⟩
  | 8 => ⟨S640000, .i32⟩
  | 9 => ⟨S680000, .i32⟩
  | 10 => ⟨S1x640000, .i32⟩
  | 11 => ⟨S640000, .i32⟩
  | 12 => ⟨S680000, .i32⟩
  | 13 => ⟨S_, .f32⟩
  | 14 => ⟨S680000, .f32⟩
  | 15 => ⟨S_, .f32⟩
  | 16 => ⟨S40000, .f32⟩
  | 17 => ⟨S680000x1, .i32⟩
  | 18 => ⟨S40000, .f32⟩
  | 19 => ⟨S_, .f32⟩
  | 20 => ⟨S40000, .f32⟩
  | 21 => ⟨S40000, .i1⟩
  | 22 => ⟨S40000, .f32⟩
  | 23 => ⟨S_, .f32⟩
  | 24 => ⟨S_, .f32⟩
  | 25 => ⟨S40000, .f32⟩
  | 26 => ⟨S40000, .f32⟩
  | 27 => ⟨S_, .i32⟩
  | 28 => ⟨S680000, .i32⟩
  | 29 => ⟨S680000, .i1⟩
  | 30 => ⟨S_, .i32⟩
  | 31 => ⟨S680000, .i32⟩
  | 32 => ⟨S680000, .i32⟩
  | 33 => ⟨S680000, .i32⟩
  | 34 => ⟨S680000x1, .i32⟩
  | 35 => ⟨S680000, .f32⟩
  | 36 => ⟨S_, .i32⟩
  | 37 => ⟨S680000, .i32⟩
  | 38 => ⟨S680000, .i1⟩
  | 39 => ⟨S_, .i32⟩
  | 40 => ⟨S680000, .i32⟩
  | 41 => ⟨S680000, .i32⟩
  | 42 => ⟨S680000, .i32⟩
  | 43 => ⟨S680000x1, .i32⟩
  | 44 => ⟨S680000, .f32⟩
  | 45 => ⟨S680000, .f32⟩
  | 46 => ⟨S40000x128, .f32⟩
  | 47 => ⟨S_, .i32⟩
  | 48 => ⟨S680000, .i32⟩
  | 49 => ⟨S680000, .i1⟩
  | 50 => ⟨S_, .i32⟩
  | 51 => ⟨S680000, .i32⟩
  | 52 => ⟨S680000, .i32⟩
  | 53 => ⟨S680000, .i32⟩
  | 54 => ⟨S680000x1, .i32⟩
  | 55 => ⟨S680000x128, .f32⟩
  | 56 => ⟨S680000x1, .f32⟩
  | 57 => ⟨S680000x128, .f32⟩
  | 58 => ⟨S680000x128, .f32⟩
  | 59 => ⟨S_, .f32⟩
  | 60 => ⟨S40000x128, .f32⟩
  | 61 => ⟨S680000x1, .i32⟩
  | 62 => ⟨S40000x128, .f32⟩
  | 63 => ⟨S1x128, .f32⟩
  | 64 => ⟨S40000x128, .f32⟩
  | 65 => ⟨S40000x128, .f32⟩
  | 66 => ⟨S_, .f32⟩
  | 67 => ⟨S40000x128, .f32⟩
  | 68 => ⟨S40000x128, .f32⟩
  | 69 => ⟨S40000, .i32⟩
  | 70 => ⟨S1x640000, .i32⟩
  | 71 => ⟨S640000, .i32⟩
  | 72 => ⟨S680000, .i32⟩
  | 73 => ⟨S1x640000, .i32⟩
  | 74 => ⟨S640000, .i32⟩
  | 75 => ⟨S680000, .i32⟩
  | 76 => ⟨S_, .f32⟩
  | 77 => ⟨S680000, .f32⟩
  | 78 => ⟨S_, .f32⟩
  | 79 => ⟨S40000, .f32⟩
  | 80 => ⟨S680000x1, .i32⟩
  | 81 => ⟨S40000, .f32⟩
  | 82 => ⟨S_, .f32⟩
  | 83 => ⟨S40000, .f32⟩
  | 84 => ⟨S40000, .i1⟩
  | 85 => ⟨S40000, .f32⟩
  | 86 => ⟨S_, .f32⟩
  | 87 => ⟨S_, .f32⟩
  | 88 => ⟨S40000, .f32⟩
  | 89 => ⟨S40000, .f32⟩
  | 90 => ⟨S_, .i32⟩
  | 91 => ⟨S680000, .i32⟩
  | 92 => ⟨S680000, .i1⟩
  | 93 => ⟨S_, .i32⟩
  | 94 => ⟨S680000, .i32⟩
  | 95 => ⟨S680000, .i32⟩
  | 96 => ⟨S680000, .i32⟩
  | 97 => ⟨S680000x1, .i32⟩
  | 98 => ⟨S680000, .f32⟩
  | 99 => ⟨S_, .i32⟩
  | 100 => ⟨S680000, .i32⟩
  | 101 => ⟨S680000, .i1⟩
  | 102 => ⟨S_, .i32⟩
  | 103 => ⟨S680000, .i32⟩
  | 104 => ⟨S680000, .i32⟩
  | 105 => ⟨S680000, .i32⟩
  | 106 => ⟨S680000x1, .i32⟩
  | 107 => ⟨S680000, .f32⟩
  | 108 => ⟨S680000, .f32⟩
  | 109 => ⟨S40000x64, .f32⟩
  | 110 => ⟨S_, .i32⟩
  | 111 => ⟨S680000, .i32⟩
  | 112 => ⟨S680000, .i1⟩
  | 113 => ⟨S_, .i32⟩
  | 114 => ⟨S680000, .i32⟩
  | 115 => ⟨S680000, .i32⟩
  | 116 => ⟨S680000, .i32⟩
  | 117 => ⟨S680000x1, .i32⟩
  | 118 => ⟨S680000x64, .f32⟩
  | 119 => ⟨S680000x1, .f32⟩
  | 120 => ⟨S680000x64, .f32⟩
  | 121 => ⟨S680000x64, .f32⟩
  | 122 => ⟨S_, .f32⟩
  | 123 => ⟨S40000x64, .f32⟩
  | 124 => ⟨S680000x1, .i32⟩
  | 125 => ⟨S40000x64, .f32⟩
  | 126 => ⟨S1x64, .f32⟩
  | 127 => ⟨S40000x64, .f32⟩
  | _ => ⟨S40000x128, .f32⟩

abbrev hbmTy0_1 (i : Nat) : BufTy := match i % 128 with
  | 0 => ⟨S40000x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S680000x1_S680000x64_0_1 : S680000x1.BroadcastsInDim S680000x64 (![0, 1] : Fin 2 → Fin S680000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S40000x128_S128x64_S40000x64_1_0_0_1_n_n_wf : DotDims.WF S40000x128 S128x64 S40000x64 [1] [0] [0] [1] [] []
  gather_S40000x64_S680000x1_S680000x64_1_0_n_n_0_1_164_wf : GatherDims.WF S40000x64 S680000x1 S680000x64 [1] [0] [] [0] [] 1 ![1, 64]
  scatter_S40000x64_S680000x1_S680000x64_1_0_0_1_wf : ScatterDims.WF S40000x64 S680000x1 S680000x64 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S680000x1_S680000x64_1_0_n_n_0_1_164 : GatherDims S40000x64 S680000x1 S680000x64 where
  offsetDims := [1]
  collapsedSliceDims := [0]
  operandBatchingDims := []
  startIndicesBatchingDims := []
  startIndexMap := [0]
  indexVectorDim := 1
  sliceSizes := ![1, 64]
  wf := gather_S40000x64_S680000x1_S680000x64_1_0_n_n_0_1_164_wf
def scatter_S40000x64_S680000x1_S680000x64_1_0_0_1 : ScatterDims S40000x64 S680000x1 S680000x64 where
  updateWindowDims := [1]
  insertedWindowDims := [0]
  scatterDimsToOperandDims := [0]
  indexVectorDim := 1
  wf := scatter_S40000x64_S680000x1_S680000x64_1_0_0_1_wf

class Facts : Prop extends Facts₀ where

variable [Facts]
-- ==== Proof.Spec.lean ====
/-
  The graph-convolution layers as functions of whole arrays, spelt with the printed program's own host operations.
  Both programs compute, for node features x, edges e = (src, dst) with a self-loop added per node, weights W1, W2 and
  biases b1, b2:
      deg  = scatter-add of ones at dst,     dinv = deg > 0 ? rsqrt deg : 0,     nrm = dinv[src] · dinv[dst],
      agg h b = scatter-add at dst of h[src] · nrm, plus b,
      result  = agg ((relu (agg (x · W1) b1)) · W2) b2.
  The two matrix products are the only part the programs compute differently (a block-tiled kernel against one
  host product); at the extended reals both are the plain sum over the contracted axis, `mm128` and `mm64` below.
-/
import proofs.«100928_j65481071395456_1_alg».proof.Proof.Gen.KernelIdeal
import Idealize.ShloMosaic.PureOps.Ideal

noncomputable section

namespace Cert.KernelIdeal.Spec

open Cert.KernelIdeal Cert.KernelIdeal.Gen Idealize.ShloMosaic Idealize.ShloMosaic.TcCoe

variable {F : FTy → Type} [FloatOps F]

/-- Source node of every edge: row 0 of the edge list, then one self-loop per node. -/
def srcOf (e : (⟨S2x640000, .i32⟩ : BufTy).Contents (Elt F)) : (⟨S680000, .i32⟩ : BufTy).Contents (Elt F) :=
  concatenate S680000 0 [⟨S640000, (shapeCast _ (extractStridedSlice S1x640000 ![0, 0] e slices_S2x640000_S1x640000_0_0) shapeCasts_S1x640000_S640000)⟩, ⟨S40000, (iotaInDim S40000 32 0)⟩] concatenates_S640000_S40000_S680000_d0

/-- Destination node of every edge: row 1 of the edge list, then one self-loop per node. -/
def dstOf (e : (⟨S2x640000, .i32⟩ : BufTy).Contents (Elt F)) : (⟨S680000, .i32⟩ : BufTy).Contents (Elt F) :=
  concatenate S680000 0 [⟨S640000, (shapeCast _ (extractStridedSlice S1x640000 ![1, 0] e slices_S2x640000_S1x640000_1_0) shapeCasts_S1x640000_S640000)⟩, ⟨S40000, (iotaInDim S40000 32 0)⟩] concatenates_S640000_S40000_S680000_d0

/-- A negative node index counts from the end (the index normalisation in front of every gather). -/
def wrapIdx (v : (⟨S680000, .i32⟩ : BufTy).Contents (Elt F)) : (⟨S680000, .i32⟩ : BufTy).Contents (Elt F) :=
  select (cmpi .slt v (broadcastInDim S680000 ![] bcast_S_S680000 (constantI S_ 32 0#32))) (addi v (broadcastInDim S680000 ![] bcast_S_S680000 (constantI S_ 32 40000#32))) v

/-- In-degree of every node, self-loop included: ones scatter-added at the destinations. -/
def degOf (dst : (⟨S680000, .i32⟩ : BufTy).Contents (Elt F)) : (⟨S40000, .f32⟩ : BufTy).Contents (Elt F) :=
  Host.scatterAdd scatter_S40000_S680000x1_S680000_n_0_0_1 (broadcastInDim S40000 ![] bcast_S_S40000 (constant S_ .f32 0x00000000#32)) (broadcastInDim S680000x1 ![0] bcast_S680000_S680000x1_0 dst) (broadcastInDim S680000 ![] bcast_S_S680000 (constant S_ .f32 0x3F800000#32))

/-- deg^(-1/2) where the degree is positive, zero elsewhere. -/
def dinvOf (dst : (⟨S680000, .i32⟩ : BufTy).Contents (Elt F)) : (⟨S40000, .f32⟩ : BufTy).Contents (Elt F) :=
  select (cmpf (F := F) .ogt (degOf dst) (broadcastInDim S40000 ![] bcast_S_S40000 (constant S_ .f32 0x00000000#32))) (Host.rsqrt (degOf dst)) (broadcastInDim S40000 ![] bcast_S_S40000 (id (constant S_ .f32 0x00000000#32)))

/-- The symmetric normalisation of an edge: dinv at its source times dinv at its destination. -/
def normOf (src dst : (⟨S680000, .i32⟩ : BufTy).Contents (Elt F)) : (⟨S680000, .f32⟩ : BufTy).Contents (Elt F) :=
  mulf (Host.gather gather_S40000_S680000x1_S680000_n_0_n_n_0_1_1 (dinvOf dst) (broadcastInDim S680000x1 ![0] bcast_S680000_S680000x1_0 (wrapIdx src))) (Host.gather gather_S40000_S680000x1_S680000_n_0_n_n_0_1_1 (dinvOf dst) (broadcastInDim S680000x1 ![0] bcast_S680000_S680000x1_0 (wrapIdx dst)))

/-- One aggregation over 128 features: rows of `h` gathered at the sources, scaled by the edge's normalisation,
    scatter-added at the destinations, plus the bias on every row. -/
def agg128 (src dst : (⟨S680000, .i32⟩ : BufTy).Contents (Elt F)) (nrm : (⟨S680000, .f32⟩ : BufTy).Contents (Elt F)) (b : (⟨S128, .f32⟩ : BufTy).Contents (Elt F)) (h : (⟨S40000x128, .f32⟩ : BufTy).Contents (Elt F)) : (⟨S40000x128, .f32⟩ : BufTy).Contents (Elt F) :=
  addf (Host.scatterAdd scatter_S40000x128_S680000x1_S680000x128_1_0_0_1 (broadcastInDim S40000x128 ![] bcast_S_S40000x128 (constant S_ .f32 0x00000000#32)) (broadcastInDim S680000x1 ![0] bcast_S680000_S680000x1_0 dst) (mulf (Host.gather gather_S40000x128_S680000x1_S680000x128_1_0_n_n_0_1_1128 h (broadcastInDim S680000x1 ![0] bcast_S680000_S680000x1_0 (wrapIdx src))) (broadcastInDim S680000x128 ![0, 1] bcast_S680000x1_S680000x128_0_1 (broadcastInDim S680000x1 ![0] bcast_S680000_S680000x1_0 nrm)))) (broadcastInDim S40000x128 ![0, 1] bcast_S1x128_S40000x128_0_1 (broadcastInDim S1x128 ![1] bcast_S128_S1x128_1 b))

/-- The same aggregation over 64 features. -/
def agg64 (src dst : (⟨S680000, .i32⟩ : BufTy).Contents (Elt F)) (nrm : (⟨S680000, .f32⟩ : BufTy).Contents (Elt F)) (b : (⟨S64, .f32⟩ : BufTy).Contents (Elt F)) (h : (⟨S40000x64, .f32⟩ : BufTy).Contents (Elt F)) : (⟨S40000x64, .f32⟩ : BufTy).Contents (Elt F) :=
  addf (Host.scatterAdd scatter_S40000x64_S680000x1_S680000x64_1_0_0_1 (broadcastInDim S40000x64 ![] bcast_S_S40000x64 (constant S_ .f32 0x00000000#32)) (broadcastInDim S680000x1 ![0] bcast_S680000_S680000x1_0 dst) (mulf (Host.gather gather_S40000x64_S680000x1_S680000x64_1_0_n_n_0_1_164 h (broadcastInDim S680000x1 ![0] bcast_S680000_S680000x1_0 (wrapIdx src))) (broadcastInDim S680000x64 ![0, 1] bcast_S680000x1_S680000x64_0_1 (broadcastInDim S680000x1 ![0] bcast_S680000_S680000x1_0 nrm)))) (broadcastInDim S40000x64 ![0, 1] bcast_S1x64_S40000x64_0_1 (broadcastInDim S1x64 ![1] bcast_S64_S1x64_1 b))

/-- The first layer after its matrix product: aggregation, bias, then max with zero. -/
def layer1 (src dst : (⟨S680000, .i32⟩ : BufTy).Contents (Elt F)) (nrm : (⟨S680000, .f32⟩ : BufTy).Contents (Elt F)) (b : (⟨S128, .f32⟩ : BufTy).Contents (Elt F)) (h : (⟨S40000x128, .f32⟩ : BufTy).Contents (Elt F)) : (⟨S40000x128, .f32⟩ : BufTy).Contents (Elt F) :=
  maximumf (agg128 src dst nrm b h) (broadcastInDim S40000x128 ![] bcast_S_S40000x128 (constant S_ .f32 0x00000000#32))

/-- Row `i 0` of a 40000×128 array at column `k`. -/
abbrev rowAt128 (i : S40000x128.Idx) (k : Fin 128) : S40000x128.Idx := fun a => match a with
  | ⟨0, _⟩ => ⟨(i 0).val, (i 0).isLt⟩
  | ⟨1, _⟩ => ⟨k.val, k.isLt⟩
/-- Row `k` of a 128×128 array at column `i 1`. -/
abbrev colAt128 (i : S40000x128.Idx) (k : Fin 128) : S128x128.Idx := fun a => match a with
  | ⟨0, _⟩ => ⟨k.val, k.isLt⟩
  | ⟨1, _⟩ => ⟨(i 1).val, (i 1).isLt⟩
/-- Row `i 0` of a 40000×128 array at column `k`, for an index `i` of a 40000×64 array. -/
abbrev rowAt64 (i : S40000x64.Idx) (k : Fin 128) : S40000x128.Idx := fun a => match a with
  | ⟨0, _⟩ => ⟨(i 0).val, (i 0).isLt⟩
  | ⟨1, _⟩ => ⟨k.val, k.isLt⟩
/-- Row `k` of a 128×64 array at column `i 1`. -/
abbrev colAt64 (i : S40000x64.Idx) (k : Fin 128) : S128x64.Idx := fun a => match a with
  | ⟨0, _⟩ => ⟨k.val, k.isLt⟩
  | ⟨1, _⟩ => ⟨(i 1).val, (i 1).isLt⟩

/-- The matrix product x · w of a 40000×128 by a 128×128 array over the extended reals. -/
def mm128 (x : (⟨S40000x128, .f32⟩ : BufTy).Contents (Elt Ideal)) (w : (⟨S128x128, .f32⟩ : BufTy).Contents (Elt Ideal)) :
    (⟨S40000x128, .f32⟩ : BufTy).Contents (Elt Ideal) :=
  fun i => ∑ k : Fin 128, x (rowAt128 i k) * w (colAt128 i k)

/-- The matrix product h · w of a 40000×128 by a 128×64 array over the extended reals. -/
def mm64 (h : (⟨S40000x128, .f32⟩ : BufTy).Contents (Elt Ideal)) (w : (⟨S128x64, .f32⟩ : BufTy).Contents (Elt Ideal)) :
    (⟨S40000x64, .f32⟩ : BufTy).Contents (Elt Ideal) :=
  fun i => ∑ k : Fin 128, h (rowAt64 i k) * w (colAt64 i k)

/-- The whole computation, at the extended reals, as one function of the six arguments. -/
def gcn (x : (⟨S40000x128, .f32⟩ : BufTy).Contents (Elt Ideal)) (e : (⟨S2x640000, .i32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S40000x64, .f32⟩ : BufTy).Contents (Elt Ideal) :=
  agg64 (srcOf e) (dstOf e) (normOf (srcOf e) (dstOf e)) b2
    (mm64 (layer1 (srcOf e) (dstOf e) (normOf (srcOf e) (dstOf e)) b1 (mm128 x w1)) w2)

end Cert.KernelIdeal.Spec

end
-- ==== Proof.HostVal.lean ====
/-
  The kernel program's host stretches as functions. Between its two matrix-product regions the program runs three
  stretches of host operations; read at the buffers later stretches use, each is one of `Spec`'s functions of the
  buffers it starts from: the first builds the edge lists and their normalisation from the edge array, the second is
  the first layer's aggregation, bias and max with zero of the first product, the third the second layer's aggregation
  and bias of the second product. Every other buffer a later stretch reads passes through unchanged.
-/
import proofs.«100928_j65481071395456_1_alg».proof.Proof.Gen.KernelIdeal.Launch
import proofs.«100928_j65481071395456_1_alg».proof.Proof.Spec
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
variable (Vl : Valuation τ sig (Elt F))

/-! ## The stretch before the first region: edge lists and normalisation from the edge array -/

theorem first_src : StableHlo.after hostOps0_2 (StableHlo.after hostOps0_1 (StableHlo.after hostOps0 Vl)) (Proc.devRef .tc main_v3) = Spec.srcOf (Vl (Proc.devRef .tc main_arg1)) := by
  dsimp only [hostOps0, hostOps0_1, hostOps0_2]
  after_results_simp <;> rfl

theorem first_dst : StableHlo.after hostOps0_2 (StableHlo.after hostOps0_1 (StableHlo.after hostOps0 Vl)) (Proc.devRef .tc main_v6) = Spec.dstOf (Vl (Proc.devRef .tc main_arg1)) := by
  dsimp only [hostOps0, hostOps0_1, hostOps0_2]
  after_results_simp <;> rfl

theorem first_norm : StableHlo.after hostOps0_2 (StableHlo.after hostOps0_1 (StableHlo.after hostOps0 Vl)) (Proc.devRef .tc main_v29) = Spec.normOf (Spec.srcOf (Vl (Proc.devRef .tc main_arg1))) (Spec.dstOf (Vl (Proc.devRef .tc main_arg1))) := by
  dsimp only [hostOps0, hostOps0_1, hostOps0_2]
  after_results_simp <;> rfl

theorem first_keep_main_arg0 : StableHlo.after hostOps0_2 (StableHlo.after hostOps0_1 (StableHlo.after hostOps0 Vl)) (Proc.devRef .tc main_arg0) = Vl (Proc.devRef .tc main_arg0) := by
  dsimp only [hostOps0, hostOps0_1, hostOps0_2]
  after_results_simp <;> rfl

theorem first_keep_main_arg2 : StableHlo.after hostOps0_2 (StableHlo.after hostOps0_1 (StableHlo.after hostOps0 Vl)) (Proc.devRef .tc main_arg2) = Vl (Proc.devRef .tc main_arg2) := by
  dsimp only [hostOps0, hostOps0_1, hostOps0_2]
  after_results_simp <;> rfl

theorem first_keep_main_arg3 : StableHlo.after hostOps0_2 (StableHlo.after hostOps0_1 (StableHlo.after hostOps0 Vl)) (Proc.devRef .tc main_arg3) = Vl (Proc.devRef .tc main_arg3) := by
  dsimp only [hostOps0, hostOps0_1, hostOps0_2]
  after_results_simp <;> rfl

theorem first_keep_main_arg4 : StableHlo.after hostOps0_2 (StableHlo.after hostOps0_1 (StableHlo.after hostOps0 Vl)) (Proc.devRef .tc main_arg4) = Vl (Proc.devRef .tc main_arg4) := by
  dsimp only [hostOps0, hostOps0_1, hostOps0_2]
  after_results_simp <;> rfl

theorem first_keep_main_arg5 : StableHlo.after hostOps0_2 (StableHlo.after hostOps0_1 (StableHlo.after hostOps0 Vl)) (Proc.devRef .tc main_arg5) = Vl (Proc.devRef .tc main_arg5) := by
  dsimp only [hostOps0, hostOps0_1, hostOps0_2]
  after_results_simp <;> rfl

/-! ## The stretch between the regions: the first layer after its product -/

theorem mid_layer : StableHlo.after hostOps1_1 (StableHlo.after hostOps1 Vl) (Proc.devRef .tc main_v47) = Spec.layer1 (Vl (Proc.devRef .tc main_v3)) (Vl (Proc.devRef .tc main_v6)) (Vl (Proc.devRef .tc main_v29)) (Vl (Proc.devRef .tc main_arg3)) (Vl (Proc.devRef .tc main_v30)) := by
  dsimp only [hostOps1, hostOps1_1]
  after_results_simp <;> rfl

theorem mid_keep_main_v3 : StableHlo.after hostOps1_1 (StableHlo.after hostOps1 Vl) (Proc.devRef .tc main_v3) = Vl (Proc.devRef .tc main_v3) := by
  dsimp only [hostOps1, hostOps1_1]
  after_results_simp <;> rfl

theorem mid_keep_main_v6 : StableHlo.after hostOps1_1 (StableHlo.after hostOps1 Vl) (Proc.devRef .tc main_v6) = Vl (Proc.devRef .tc main_v6) := by
  dsimp only [hostOps1, hostOps1_1]
  after_results_simp <;> rfl

theorem mid_keep_main_v29 : StableHlo.after hostOps1_1 (StableHlo.after hostOps1 Vl) (Proc.devRef .tc main_v29) = Vl (Proc.devRef .tc main_v29) := by
  dsimp only [hostOps1, hostOps1_1]
  after_results_simp <;> rfl

theorem mid_keep_main_arg4 : StableHlo.after hostOps1_1 (StableHlo.after hostOps1 Vl) (Proc.devRef .tc main_arg4) = Vl (Proc.devRef .tc main_arg4) := by
  dsimp only [hostOps1, hostOps1_1]
  after_results_simp <;> rfl

theorem mid_keep_main_arg5 : StableHlo.after hostOps1_1 (StableHlo.after hostOps1 Vl) (Proc.devRef .tc main_arg5) = Vl (Proc.devRef .tc main_arg5) := by
  dsimp only [hostOps1, hostOps1_1]
  after_results_simp <;> rfl

/-! ## The stretch after the second region: the second layer after its product -/

theorem last_layer : StableHlo.after hostOps2 Vl (Proc.devRef .tc main_v64) = Spec.agg64 (Vl (Proc.devRef .tc main_v3)) (Vl (Proc.devRef .tc main_v6)) (Vl (Proc.devRef .tc main_v29)) (Vl (Proc.devRef .tc main_arg5)) (Vl (Proc.devRef .tc main_v48)) := by
  dsimp only [hostOps2]
  after_results_simp <;> rfl

end Cert.KernelIdeal.HostVal

end
-- ==== Proof.MatVal0.lean ====
/-
  What the first matrix-product region leaves in its output array. The grid has eight points; point t reads rows
  5000·t … 5000·t + 4999 of x (all 128 columns) and the whole 128×128 weight, and writes the same rows of the output.
  Over the extended reals the body's product into a zero accumulator is, entry by entry, the sum over the contracted
  axis of x[row, k] · w[k, column] (the change of float format in front of it is the identity), so each written block
  is the restriction of the whole-array product to its rows; the eight blocks cover every row, so the output array is
  the whole-array product `Spec.mm128`.
-/
import proofs.«100928_j65481071395456_1_alg».proof.Proof.Gen.KernelIdeal.Frame
import proofs.«100928_j65481071395456_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatVal0

open Cert.KernelIdeal Cert.KernelIdeal.Gen Idealize.ShloMosaic Idealize.ShloMosaic.TcCoe Idealize.SL.Sem
open Idealize.ShloMosaic.Pipeline (Dat Cfg Window)

-- the TensorCore's buffer contents when the region is entered (the parameter the generated frame states each region at)
variable (V : (c : Dev nD) → (b : Ref sig .tc) → Buf (Elt Ideal) ((c : Thread nD τ).loc b))

/-!
# The first matrix product, block by block

The first region computes x · w for x of 40000 × 128 and w of 128 × 128 in 8 steps: step `t` takes rows
`5000 t … 5000 t + 4999` of x and all of w, multiplies them, and writes the 5000 × 128 result over the same rows of
the output. Over the extended reals the block product at (p, q) is `∑ k, x[5000 t + p, k] · w[k, q]`, which is the
whole product at (5000 t + p, q); the 8 row blocks fill the output array, so it ends holding x · w everywhere.
-/

/-- The zero offsets of a whole-block access, as the constant function. -/
theorem hz : (![0, 0] : Fin 2 → Nat) = fun _ => 0 := funext fun a => by fin_cases a <;> rfl

/-! ## One element of a block product -/

/-- At output index `j` and contraction index `q`, the left operand is read at row `j 0` … -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted column; -/
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- the right operand is read at the contracted row … -/
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and at column `j 1`. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of a 5000 × 128 block at column `k`. -/
abbrev blkRow (j : S5000x128.Idx) (k : Fin 128) : S5000x128.Idx := fun a => match a with
  | ⟨0, _⟩ => ⟨(j 0).val, (j 0).isLt⟩
  | ⟨1, _⟩ => ⟨k.val, k.isLt⟩
/-- Row `k` of the 128 × 128 block at column `j 1`. -/
abbrev blkCol (j : S5000x128.Idx) (k : Fin 128) : S128x128.Idx := fun a => match a with
  | ⟨0, _⟩ => ⟨k.val, k.isLt⟩
  | ⟨1, _⟩ => ⟨(j 1).val, (j 1).isLt⟩

/-- THE BLOCK PRODUCT AT AN INDEX. Over the extended reals the narrowing of both blocks to bf16 is the identity and the
    product into a zero accumulator is the plain sum over the contracted axis: at `j` = (p, q) the step's result is
    `∑ k, x0[p, k] · x1[k, q]`. The sum over the one-axis contraction index is re-indexed by that axis's coordinate. -/
theorem pay_apply (x0 : Vec Ideal S5000x128 .f32) (x1 : Vec Ideal S128x128 .f32) (j : S5000x128.Idx) :
    k0_pay1 x0 x1 j = ∑ k : Fin 128, x0 (blkRow j k) * x1 (blkCol j k) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkRow j k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = blkCol j k := funext fun a => Fin.ext (by
    match a with
    | ⟨0, _⟩ => exact (rhs_row _ _).trans hk
    | ⟨1, _⟩ => exact rhs_col _ _)
  rw [el, er]
  rfl

/-- ONE ELEMENT OF A BLOCK PRODUCT IS ONE ELEMENT OF THE WHOLE PRODUCT: when row `j 0` of the left block is row `i 0` of
    the array `x` and column `j 1` of the right block is column `i 1` of the array `w`, the block product at `j` is
    x · w at `i` — the two sums over the contracted axis agree term by term. -/
theorem block_product_eq (x : (⟨S40000x128, .f32⟩ : BufTy).Contents (Elt Ideal)) (w : (⟨S128x128, .f32⟩ : BufTy).Contents (Elt Ideal))
    (b0 : Vec Ideal S5000x128 .f32) (b1 : Vec Ideal S128x128 .f32) (j : S5000x128.Idx) (i : S40000x128.Idx)
    (h0 : ∀ k : Fin 128, b0 (blkRow j k) = x (Spec.rowAt128 i k))
    (h1 : ∀ k : Fin 128, b1 (blkCol j k) = w (Spec.colAt128 i k)) :
    k0_pay1 b0 b1 j = Spec.mm128 x w i := by
  refine (pay_apply b0 b1 j).trans ?_
  show _ = ∑ k : Fin 128, x (Spec.rowAt128 i k) * w (Spec.colAt128 i k)
  exact Finset.sum_congr rfl fun k _ => by rw [h0 k, h1 k]

/-! ## From the blocks to the array -/

/-- The block index maps, decided once over the 8 grid points: the left operand's row block moves with the output's,
    every other block index is zero, and the output's row block is one of 0 … 7. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every one of the 8 row blocks of the output is some grid point's. -/
theorem idx_onto : ∀ q : Fin 8, ∃ t : Fin cfg0.N, win0_2.index t = ![q.val, 0] :=
  (by decide +kernel : ∀ q : Fin 8, ∃ t : Fin grid0.N, win0_2.index t = ![q.val, 0])

/-- WHAT POINT `t` WRITES BACK is block `t` of x · w, for x and w the two operand arrays as the region finds them.
    An element (p, q) of the block sits in the array at (5000 · (block index) + p, q); the left block's element (p, k)
    is x at (5000 · (the same block index) + p, k) and the right block's (k, q) is w at (k, q). -/
theorem flushed_eq (c : Dev nD) (t : Fin cfg0.N) :
    (dat0 V c).flushed 2 t = ((cfg0.win 2).blk t).view.read (Elt Ideal) (Spec.mm128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = Spec.mm128 (V c main_arg0) (V c main_arg2) (((cfg0.win 2).blk t).view.emb j)
  refine block_product_eq (V c main_arg0) (V c main_arg2) (iblk0 V c 0 t) (iblk0 V c 1 t) j _ ?_ ?_
  · intro k
    show V c main_arg0 (((cfg0.win 0).blk t).view.emb (blkRow j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    show V c main_arg2 (((cfg0.win 1).blk t).view.emb (blkCol j k)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk (t : Fin cfg0.N) (i : S40000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- THE BLOCKS FILL THE ARRAY: row `r` of the output is in row block `r / 5000`, which is below 8 since `r < 40000`,
    and every column is in the one column block. -/
theorem cover (i : S40000x128.Idx) : ∃ t : Fin cfg0.N, (cfg0.win 2).flush t = true ∧ i ∈ ((cfg0.win 2).blk t).view.set := by
  have hi0 : (i 0).val < 40000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region has run: every point writes back its block of x · w and the blocks fill the
    array, so the array is x · w. -/
theorem final0 (c : Dev nD) : (dat0 (F := Ideal) V c).arrAt 2 cfg0.N = Spec.mm128 (V c main_arg0) (V c main_arg2) :=
  (dat0 V c).arrAt_eq_of_cover 2 (Spec.mm128 (V c main_arg0) (V c main_arg2)) (fun t _ => flushed_eq V c t) cover

end Cert.KernelIdeal.MatVal0

end
-- ==== Proof.MatVal1.lean ====
/-
  The second matrix product, as the tiled region leaves it.

  The region walks a grid of eight points. At point t it holds rows 5000·t … 5000·t + 4999 of the left array
  (40000×128), the whole right array (128×64), and writes rows 5000·t … 5000·t + 4999 of the output (40000×64).
  On its blocks the body reshapes the left block to its own shape, narrows both blocks (the identity over the
  extended reals) and multiplies them into a zero accumulator, so the block it writes holds, at (j0, j1),
      ∑ k, left[5000·t + j0, k] · right[k, j1],
  which is the whole-array product `Spec.mm64` read through the output's block. The eight row blocks cover every
  row (row r is in block r / 5000), so after the last point the output array is `Spec.mm64` of the two arrays as the
  region found them.
-/
import proofs.«100928_j65481071395456_1_alg».proof.Proof.Gen.KernelIdeal.Frame
import proofs.«100928_j65481071395456_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatVal1

open Cert.KernelIdeal Cert.KernelIdeal.Gen Idealize.ShloMosaic Idealize.ShloMosaic.TcCoe Idealize.SL.Sem
open Idealize.ShloMosaic.Pipeline (Dat Cfg Window)

-- the TensorCore's buffer contents when the region is entered (the parameter the generated frame states each region at)
variable (V : (c : Dev nD) → (b : Ref sig .tc) → Buf (Elt Ideal) ((c : Thread nD τ).loc b))

/-! ### The block product at an index -/

/-- The left block's row axis is free: it carries the result's row. -/
theorem left_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The left block's column axis is the contracted one: it carries the contraction index. -/
theorem left_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q

/-- The right block's row axis is the contracted one: it carries the contraction index. -/
theorem right_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q

/-- The right block's column axis is free: it carries the result's column. -/
theorem right_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `j 0` of a 5000×128 block at column `k`. -/
abbrev blkRow (j : S5000x64.Idx) (k : Fin 128) : S5000x128.Idx := fun a => match a with
  | ⟨0, _⟩ => ⟨(j 0).val, (j 0).isLt⟩
  | ⟨1, _⟩ => ⟨k.val, k.isLt⟩
/-- Row `k` of the 128×64 block at column `j 1`. -/
abbrev blkCol (j : S5000x64.Idx) (k : Fin 128) : S128x64.Idx := fun a => match a with
  | ⟨0, _⟩ => ⟨k.val, k.isLt⟩
  | ⟨1, _⟩ => ⟨(j 1).val, (j 1).isLt⟩

/-- The body's arithmetic on one pair of blocks, read at an index of the output block: the reshaping of the left
    block to its own shape and the two narrowings are the identity over the extended reals, and the product into a
    zero accumulator is the sum over k of b0[j0, k] · b1[k, j1]. -/
theorem pay_apply (b0 : Vec Ideal S5000x128 .f32) (b1 : Vec Ideal S128x64 .f32) (j : S5000x64.Idx) :
    k1_pay1 b0 b1 j = ∑ k : Fin 128, b0 (blkRow j k) * b1 (blkCol j k) := by
  unfold k1_pay1
  refine (Ideal.matmul_constant_zero_apply (φ₁ := .bf16) (φ₂ := .bf16) dot_S5000x128_S128x64_S5000x64_1_0_0_1_n_n none (shapeCast S5000x128 b0 shapeCasts_S5000x128_S5000x128) b1 j).trans ?_
  rw [shapeCast_self]
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkRow j k := funext fun a => Fin.ext (by
    match a with
    | ⟨0, _⟩ => exact left_row _ _
    | ⟨1, _⟩ => exact (left_col _ _).trans hk)
  have er : dot_S5000x128_S128x64_S5000x64_1_0_0_1_n_n.rhsIdx j ((ValueIdx.contrEquiv1 dot_S5000x128_S128x64_S5000x64_1_0_0_1_n_n 128 rfl rfl).symm k) = blkCol j k := funext fun a => Fin.ext (by
    match a with
    | ⟨0, _⟩ => exact (right_row _ _).trans hk
    | ⟨1, _⟩ => exact right_col _ _)
  rw [el, er]

/-! ### From the blocks to the array -/

theorem hz : (![0, 0] : Fin 2 → Nat) = fun _ => 0 := funext fun a => by fin_cases a <;> rfl

/-- The printed index maps, decided once over the eight grid points: the left operand's block moves down its rows
    with the output's block; the right operand is its whole array at every point; both stay in column block 0; and
    the output's row block is one of 0 … 7. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every row block 0 … 7 of the output is some grid point's. -/
theorem idx_onto : ∀ q : Fin 8, ∃ t : Fin cfg1.N, win1_2.index t = ![q.val, 0] :=
  (by decide +kernel : ∀ q : Fin 8, ∃ t : Fin grid1.N, win1_2.index t = ![q.val, 0])

/-- What grid point `t` writes back is block `t` of the product of the two arrays as the region finds them. -/
theorem flushed_eq (c : Dev nD) (t : Fin cfg1.N) :
    (dat1 (F := Ideal) V c).flushed 2 t = ((cfg1.win 2).blk t).view.read (Elt Ideal) (Spec.mm64 (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  show k1_pay1 (iblk1 V c 0 t) (iblk1 V c 1 t) j = Spec.mm64 (V c main_v47) (V c main_arg4) (((cfg1.win 2).blk t).view.emb j)
  refine (pay_apply _ _ j).trans ?_
  refine Finset.sum_congr rfl fun k _ => ?_
  have hl : iblk1 V c 0 t (blkRow j k) = V c main_v47 (Spec.rowAt64 (((cfg1.win 2).blk t).view.emb j) k) := by
    show V c main_v47 (((cfg1.win 0).blk t).view.emb (blkRow j k)) = _
    refine congrArg (V c main_v47) (funext fun a => Fin.ext ?_)
    match a with
    | ⟨0, _⟩ => show win1_0.index t (0 : Fin 2) * 5000 + 1 * (j 0).val = win1_2.index t (0 : Fin 2) * 5000 + 1 * (j 0).val; rw [e0]
    | ⟨1, _⟩ => show win1_0.index t (1 : Fin 2) * 128 + 1 * k.val = k.val; rw [e1]; omega
  have hr : iblk1 V c 1 t (blkCol j k) = V c main_arg4 (Spec.colAt64 (((cfg1.win 2).blk t).view.emb j) k) := by
    show V c main_arg4 (((cfg1.win 1).blk t).view.emb (blkCol j k)) = _
    refine congrArg (V c main_arg4) (funext fun a => Fin.ext ?_)
    match a with
    | ⟨0, _⟩ => show win1_1.index t (0 : Fin 2) * 128 + 1 * k.val = k.val; rw [e2]; omega
    | ⟨1, _⟩ => show win1_1.index t (1 : Fin 2) * 64 + 1 * (j 1).val = win1_2.index t (1 : Fin 2) * 64 + 1 * (j 1).val; rw [e3, e4]
  exact congrArg₂ (· * ·) hl hr

/-- An index of the output array is in point `t`'s block iff each coordinate is in the block's range on its axis. -/
theorem mem_blk (t : Fin cfg1.N) (i : S40000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every index of the output array is in some grid point's block: row r lies in row block r / 5000, one of the
    eight, and the one column block is all 64 columns. -/
theorem cover (i : S40000x64.Idx) :
    ∃ t : Fin cfg1.N, (cfg1.win 2).flush t = true ∧ i ∈ ((cfg1.win 2).blk t).view.set := by
  have hi0 : (i 0).val < 40000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

theorem final1 (c : Dev nD) : (dat1 (F := Ideal) V c).arrAt 2 cfg1.N = Spec.mm64 (V c main_v47) (V c main_arg4) := by
  exact (dat1 V c).arrAt_eq_of_cover 2 (Spec.mm64 (V c main_v47) (V c main_arg4)) (fun t _ => flushed_eq V c t) cover

end Cert.KernelIdeal.MatVal1

end
-- ==== Proof.KernelVal.lean ====
/-
  The kernel program's result as ONE function of its six arguments. The buffer contents at the program's segment
  boundaries are a fold from the launch memory: three host stretches, the first matrix-product region, two stretches,
  the second region, a last stretch. Read at the buffers that matter, boundary by boundary: the edge lists and the
  normalisation are built before the first region and pass through everything after; the first region leaves x · W1;
  the stretch after it leaves the first layer; the second region leaves (first layer) · W2; the last stretch leaves the
  second layer's aggregation of that, which is the result.
-/
import proofs.«100928_j65481071395456_1_alg».proof.Proof.Gen.KernelIdeal.Frame
import proofs.«100928_j65481071395456_1_alg».proof.Proof.HostVal
import proofs.«100928_j65481071395456_1_alg».proof.Proof.MatVal0
import proofs.«100928_j65481071395456_1_alg».proof.Proof.MatVal1

set_option maxRecDepth 16384

noncomputable section

namespace Cert.KernelIdeal.KernelVal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## At the first region's entry -/

theorem entry0_src (c : Dev nD) : W3 m ρ c (Proc.devRef .tc main_v3) = Spec.srcOf (m ((c : Thread nD τ).loc main_arg1)) := HostVal.first_src (W0 m ρ c)
theorem entry0_dst (c : Dev nD) : W3 m ρ c (Proc.devRef .tc main_v6) = Spec.dstOf (m ((c : Thread nD τ).loc main_arg1)) := HostVal.first_dst (W0 m ρ c)
theorem entry0_nrm (c : Dev nD) : W3 m ρ c (Proc.devRef .tc main_v29) = Spec.normOf (Spec.srcOf (m ((c : Thread nD τ).loc main_arg1))) (Spec.dstOf (m ((c : Thread nD τ).loc main_arg1))) := HostVal.first_norm (W0 m ρ c)
theorem entry0_arg0 (c : Dev nD) : W3 m ρ c (Proc.devRef .tc main_arg0) = m ((c : Thread nD τ).loc main_arg0) := HostVal.first_keep_main_arg0 (W0 m ρ c)
theorem entry0_arg2 (c : Dev nD) : W3 m ρ c (Proc.devRef .tc main_arg2) = m ((c : Thread nD τ).loc main_arg2) := HostVal.first_keep_main_arg2 (W0 m ρ c)
theorem entry0_arg3 (c : Dev nD) : W3 m ρ c (Proc.devRef .tc main_arg3) = m ((c : Thread nD τ).loc main_arg3) := HostVal.first_keep_main_arg3 (W0 m ρ c)
theorem entry0_arg4 (c : Dev nD) : W3 m ρ c (Proc.devRef .tc main_arg4) = m ((c : Thread nD τ).loc main_arg4) := HostVal.first_keep_main_arg4 (W0 m ρ c)
theorem entry0_arg5 (c : Dev nD) : W3 m ρ c (Proc.devRef .tc main_arg5) = m ((c : Thread nD τ).loc main_arg5) := HostVal.first_keep_main_arg5 (W0 m ρ c)

/-! ## At the first region's exit: its output array holds x · W1, every buffer that is not one of its arrays is as entered -/

theorem exit0_src (c : Dev nD) : W4 m ρ c (Proc.devRef .tc main_v3) = Spec.srcOf (m ((c : Thread nD τ).loc main_arg1)) := (W4_of_ne m ρ c main_v3 (by decide)).trans (entry0_src m ρ c)
theorem exit0_dst (c : Dev nD) : W4 m ρ c (Proc.devRef .tc main_v6) = Spec.dstOf (m ((c : Thread nD τ).loc main_arg1)) := (W4_of_ne m ρ c main_v6 (by decide)).trans (entry0_dst m ρ c)
theorem exit0_nrm (c : Dev nD) : W4 m ρ c (Proc.devRef .tc main_v29) = Spec.normOf (Spec.srcOf (m ((c : Thread nD τ).loc main_arg1))) (Spec.dstOf (m ((c : Thread nD τ).loc main_arg1))) := (W4_of_ne m ρ c main_v29 (by decide)).trans (entry0_nrm m ρ c)
theorem exit0_arg3 (c : Dev nD) : W4 m ρ c (Proc.devRef .tc main_arg3) = m ((c : Thread nD τ).loc main_arg3) := (W4_of_ne m ρ c main_arg3 (by decide)).trans (entry0_arg3 m ρ c)
theorem exit0_arg4 (c : Dev nD) : W4 m ρ c (Proc.devRef .tc main_arg4) = m ((c : Thread nD τ).loc main_arg4) := (W4_of_ne m ρ c main_arg4 (by decide)).trans (entry0_arg4 m ρ c)
theorem exit0_arg5 (c : Dev nD) : W4 m ρ c (Proc.devRef .tc main_arg5) = m ((c : Thread nD τ).loc main_arg5) := (W4_of_ne m ρ c main_arg5 (by decide)).trans (entry0_arg5 m ρ c)
theorem exit0_prod (c : Dev nD) : W4 m ρ c (Proc.devRef .tc main_v30) = Spec.mm128 (m ((c : Thread nD τ).loc main_arg0)) (m ((c : Thread nD τ).loc main_arg2)) := by
  refine (W4_arr m ρ c 2).trans ((MatVal0.final0 (V3 m ρ) c).trans ?_)
  show Spec.mm128 (W3 m ρ c (Proc.devRef .tc main_arg0)) (W3 m ρ c (Proc.devRef .tc main_arg2)) = _
  rw [entry0_arg0, entry0_arg2]

/-! ## At the second region's entry: the first layer -/

theorem entry1_layer (c : Dev nD) : W6 m ρ c (Proc.devRef .tc main_v47) = Spec.layer1 (Spec.srcOf (m ((c : Thread nD τ).loc main_arg1))) (Spec.dstOf (m ((c : Thread nD τ).loc main_arg1))) (Spec.normOf (Spec.srcOf (m ((c : Thread nD τ).loc main_arg1))) (Spec.dstOf (m ((c : Thread nD τ).loc main_arg1)))) (m ((c : Thread nD τ).loc main_arg3)) (Spec.mm128 (m ((c : Thread nD τ).loc main_arg0)) (m ((c : Thread nD τ).loc main_arg2))) := by
  refine (HostVal.mid_layer (W4 m ρ c)).trans ?_
  rw [exit0_src, exit0_dst, exit0_nrm, exit0_arg3, exit0_prod]
theorem entry1_src (c : Dev nD) : W6 m ρ c (Proc.devRef .tc main_v3) = Spec.srcOf (m ((c : Thread nD τ).loc main_arg1)) := (HostVal.mid_keep_main_v3 (W4 m ρ c)).trans (exit0_src m ρ c)
theorem entry1_dst (c : Dev nD) : W6 m ρ c (Proc.devRef .tc main_v6) = Spec.dstOf (m ((c : Thread nD τ).loc main_arg1)) := (HostVal.mid_keep_main_v6 (W4 m ρ c)).trans (exit0_dst m ρ c)
theorem entry1_nrm (c : Dev nD) : W6 m ρ c (Proc.devRef .tc main_v29) = Spec.normOf (Spec.srcOf (m ((c : Thread nD τ).loc main_arg1))) (Spec.dstOf (m ((c : Thread nD τ).loc main_arg1))) := (HostVal.mid_keep_main_v29 (W4 m ρ c)).trans (exit0_nrm m ρ c)
theorem entry1_arg4 (c : Dev nD) : W6 m ρ c (Proc.devRef .tc main_arg4) = m ((c : Thread nD τ).loc main_arg4) := (HostVal.mid_keep_main_arg4 (W4 m ρ c)).trans (exit0_arg4 m ρ c)
theorem entry1_arg5 (c : Dev nD) : W6 m ρ c (Proc.devRef .tc main_arg5) = m ((c : Thread nD τ).loc main_arg5) := (HostVal.mid_keep_main_arg5 (W4 m ρ c)).trans (exit0_arg5 m ρ c)

/-! ## At the second region's exit: its output array holds (first layer) · W2 -/

theorem exit1_src (c : Dev nD) : W7 m ρ c (Proc.devRef .tc main_v3) = Spec.srcOf (m ((c : Thread nD τ).loc main_arg1)) := (W7_of_ne m ρ c main_v3 (by decide)).trans (entry1_src m ρ c)
theorem exit1_dst (c : Dev nD) : W7 m ρ c (Proc.devRef .tc main_v6) = Spec.dstOf (m ((c : Thread nD τ).loc main_arg1)) := (W7_of_ne m ρ c main_v6 (by decide)).trans (entry1_dst m ρ c)
theorem exit1_nrm (c : Dev nD) : W7 m ρ c (Proc.devRef .tc main_v29) = Spec.normOf (Spec.srcOf (m ((c : Thread nD τ).loc main_arg1))) (Spec.dstOf (m ((c : Thread nD τ).loc main_arg1))) := (W7_of_ne m ρ c main_v29 (by decide)).trans (entry1_nrm m ρ c)
theorem exit1_arg5 (c : Dev nD) : W7 m ρ c (Proc.devRef .tc main_arg5) = m ((c : Thread nD τ).loc main_arg5) := (W7_of_ne m ρ c main_arg5 (by decide)).trans (entry1_arg5 m ρ c)
theorem exit1_prod (c : Dev nD) : W7 m ρ c (Proc.devRef .tc main_v48) = Spec.mm64 (Spec.layer1 (Spec.srcOf (m ((c : Thread nD τ).loc main_arg1))) (Spec.dstOf (m ((c : Thread nD τ).loc main_arg1))) (Spec.normOf (Spec.srcOf (m ((c : Thread nD τ).loc main_arg1))) (Spec.dstOf (m ((c : Thread nD τ).loc main_arg1)))) (m ((c : Thread nD τ).loc main_arg3)) (Spec.mm128 (m ((c : Thread nD τ).loc main_arg0)) (m ((c : Thread nD τ).loc main_arg2)))) (m ((c : Thread nD τ).loc main_arg4)) := by
  refine (W7_arr m ρ c 2).trans ((MatVal1.final1 (V6 m ρ) c).trans ?_)
  show Spec.mm64 (W6 m ρ c (Proc.devRef .tc main_v47)) (W6 m ρ c (Proc.devRef .tc main_arg4)) = _
  rw [entry1_layer, entry1_arg4]

/-! ## The result -/

/-- The result buffer at the last boundary is `Spec.gcn` of the six arguments as launched. -/
theorem result (c : Dev nD) : W8 m ρ c (Proc.devRef .tc main_v64)
    = Spec.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (HostVal.last_layer (W7 m ρ c)).trans ?_
  rw [exit1_src, exit1_dst, exit1_nrm, exit1_arg5, exit1_prod]
  rfl

end Cert.KernelIdeal.KernelVal

end
-- ==== Proof.RefSide.lean ====
/-
  The reference's result term is the two layers of `Spec` around the host's two matrix products: the composed term
  the reference's run states is, subterm by subterm, the aggregation of `Spec.agg64` applied to the second product of
  `Spec.layer1` of the first product — the normalisation, computed twice by the reference, is one term each time.
-/
import proofs.«100928_j65481071395456_1_alg».proof.Proof.RefRun
import proofs.«100928_j65481071395456_1_alg».proof.Proof.Spec

noncomputable section

namespace Cert.ReferenceIdeal.RefSide

open Cert.ReferenceIdeal Cert.ReferenceIdeal.Gen Idealize.ShloMosaic Idealize.ShloMosaic.TcCoe Idealize.SL.Sem

variable {F : FTy → Type} [FloatOps F]

/-- The reference's result as the layers of `Spec` over its own two host products. -/
def viaSpec (x : (⟨S40000x128, .f32⟩ : BufTy).Contents (Elt F)) (e : (⟨S2x640000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S40000x64, .f32⟩ : BufTy).Contents (Elt F) :=
  Cert.KernelIdeal.Spec.agg64 (Cert.KernelIdeal.Spec.srcOf e) (Cert.KernelIdeal.Spec.dstOf e)
    (Cert.KernelIdeal.Spec.normOf (Cert.KernelIdeal.Spec.srcOf e) (Cert.KernelIdeal.Spec.dstOf e)) b2
    (Host.dotGeneral (φ₁ := .f32) (φ₂ := .f32) dot_S40000x128_S128x64_S40000x64_1_0_0_1_n_n none
      (Cert.KernelIdeal.Spec.layer1 (Cert.KernelIdeal.Spec.srcOf e) (Cert.KernelIdeal.Spec.dstOf e)
        (Cert.KernelIdeal.Spec.normOf (Cert.KernelIdeal.Spec.srcOf e) (Cert.KernelIdeal.Spec.dstOf e)) b1
        (Host.dotGeneral (φ₁ := .f32) (φ₂ := .f32) dot_S40000x128_S128x128_S40000x128_1_0_0_1_n_n none x w1))
      w2)

/-- The run's composed term is that function of the six arguments. -/
theorem res_eq (m : (ℓ : Loc nD τ sig) → Buf (Elt F) ℓ) (c : Dev nD) :
    ValueP.res_main_v94 (F := F) m c
      = viaSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ValueP.res_main_v94 viaSpec Cert.KernelIdeal.Spec.agg64 Cert.KernelIdeal.Spec.layer1 Cert.KernelIdeal.Spec.agg128
    Cert.KernelIdeal.Spec.normOf Cert.KernelIdeal.Spec.dinvOf Cert.KernelIdeal.Spec.degOf Cert.KernelIdeal.Spec.wrapIdx
    Cert.KernelIdeal.Spec.srcOf Cert.KernelIdeal.Spec.dstOf
  rfl

end Cert.ReferenceIdeal.RefSide

end
-- ==== Proof.RefDot.lean ====
/-
  The host's one-axis matrix product at the extended reals.

  `Host.dotGeneral` with a single contracted axis (axis 1 of the left operand against axis 0 of the right one, no
  batch axes) is, over the extended reals where every operation is exact, the plain sum
      (x · w)[i0, i1] = ∑ k, x[i0, k] · w[k, i1].
  The library's law for `dotGeneral` gives a sum over the record's one-axis contraction index space; that space is
  carried onto `Fin 128` by the evident bijection, and under it the record's left and right operand indices at
  the k-th contraction index are "row i0, column k" and "row k, column i1".  The four axis lemmas per record say
  exactly that, one axis of one operand at a time.
-/
import proofs.«100928_j65481071395456_1_alg».proof.Proof.Gen.ReferenceIdeal
import proofs.«100928_j65481071395456_1_alg».proof.Proof.Spec
import Idealize.ShloMosaic.Lib.ValueIdx
import Idealize.ShloMosaic.PureOps.Ideal.Laws

noncomputable section

namespace Cert.ReferenceIdeal.RefDot

open Cert.ReferenceIdeal Cert.ReferenceIdeal.Gen Idealize.ShloMosaic Idealize.ShloMosaic.TcCoe

/-! ### The 40000×128 by 128×128 product -/

/-- The left operand's row axis is free: it carries the result's row. -/
theorem left128_row (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl

/-- The left operand's column axis is the contracted one: it carries the contraction index. -/
theorem left128_col (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q

/-- The right operand's row axis is the contracted one: it carries the contraction index. -/
theorem right128_row (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q

/-- The right operand's column axis is free: it carries the result's column. -/
theorem right128_col (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl

/-- The host product read at one index: the sum over k of x[i0, k] · w[k, i1]. -/
theorem dot1_apply (x : (⟨S40000x128, .f32⟩ : BufTy).Contents (Elt Ideal)) (w : (⟨S128x128, .f32⟩ : BufTy).Contents (Elt Ideal)) (i : S40000x128.Idx) :
    Host.dotGeneral (F := Ideal) (φ₁ := .f32) (φ₂ := .f32) dot_S40000x128_S128x128_S40000x128_1_0_0_1_n_n none x w i
      = ∑ k : Fin 128, x (Cert.KernelIdeal.Spec.rowAt128 i k) * w (Cert.KernelIdeal.Spec.colAt128 i k) := by
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx i ((ValueIdx.contrEquiv1 dot_S40000x128_S128x128_S40000x128_1_0_0_1_n_n 128 rfl rfl).symm k) = Cert.KernelIdeal.Spec.rowAt128 i k := funext fun a => Fin.ext (by
    match a with
    | ⟨0, _⟩ => exact left128_row _ _
    | ⟨1, _⟩ => exact (left128_col _ _).trans hk)
  have er : dot_S40000x128_S128x128_S40000x128_1_0_0_1_n_n.rhsIdx i ((ValueIdx.contrEquiv1 dot_S40000x128_S128x128_S40000x128_1_0_0_1_n_n 128 rfl rfl).symm k) = Cert.KernelIdeal.Spec.colAt128 i k := funext fun a => Fin.ext (by
    match a with
    | ⟨0, _⟩ => exact (right128_row _ _).trans hk
    | ⟨1, _⟩ => exact right128_col _ _)
  rw [el, er]

theorem dot1_eq (x : (⟨S40000x128, .f32⟩ : BufTy).Contents (Elt Ideal)) (w : (⟨S128x128, .f32⟩ : BufTy).Contents (Elt Ideal)) :
    Host.dotGeneral (F := Ideal) (φ₁ := .f32) (φ₂ := .f32) dot_S40000x128_S128x128_S40000x128_1_0_0_1_n_n none x w = Cert.KernelIdeal.Spec.mm128 x w := by
  funext i
  rw [dot1_apply]
  rfl

/-! ### The 40000×128 by 128×64 product -/

/-- The left operand's row axis is free: it carries the result's row. -/
theorem left64_row (i : S40000x64.Idx) (q : dot_S40000x128_S128x64_S40000x64_1_0_0_1_n_n.contr.Idx) :
    (dot_S40000x128_S128x64_S40000x64_1_0_0_1_n_n.lhsIdx i q 0).val = (i 0).val := by
  unfold DotDims.lhsIdx
  rw [dif_neg (show ¬(0 : Fin S40000x128.rank) ∈ dot_S40000x128_S128x64_S40000x64_1_0_0_1_n_n.lhsBatch by decide), dif_pos (show (0 : Fin S40000x128.rank) ∈ dot_S40000x128_S128x64_S40000x64_1_0_0_1_n_n.lhsNonContracting by decide)]
  rfl

/-- The left operand's column axis is the contracted one: it carries the contraction index. -/
theorem left64_col (i : S40000x64.Idx) (q : dot_S40000x128_S128x64_S40000x64_1_0_0_1_n_n.contr.Idx) :
    (dot_S40000x128_S128x64_S40000x64_1_0_0_1_n_n.lhsIdx i q 1).val = (q ⟨0, by decide⟩).val :=
  dot_S40000x128_S128x64_S40000x64_1_0_0_1_n_n.lhsIdx_val_of_single rfl i q

/-- The right operand's row axis is the contracted one: it carries the contraction index. -/
theorem right64_row (i : S40000x64.Idx) (q : dot_S40000x128_S128x64_S40000x64_1_0_0_1_n_n.contr.Idx) :
    (dot_S40000x128_S128x64_S40000x64_1_0_0_1_n_n.rhsIdx i q 0).val = (q ⟨0, by decide⟩).val :=
  dot_S40000x128_S128x64_S40000x64_1_0_0_1_n_n.rhsIdx_val_of_single rfl i q

/-- The right operand's column axis is free: it carries the result's column. -/
theorem right64_col (i : S40000x64.Idx) (q : dot_S40000x128_S128x64_S40000x64_1_0_0_1_n_n.contr.Idx) :
    (dot_S40000x128_S128x64_S40000x64_1_0_0_1_n_n.rhsIdx i q 1).val = (i 1).val := by
  unfold DotDims.rhsIdx
  rw [dif_neg (show ¬(1 : Fin S128x64.rank) ∈ dot_S40000x128_S128x64_S40000x64_1_0_0_1_n_n.rhsBatch by decide), dif_pos (show (1 : Fin S128x64.rank) ∈ dot_S40000x128_S128x64_S40000x64_1_0_0_1_n_n.rhsNonContracting by decide)]
  rfl

/-- The host product read at one index: the sum over k of h[i0, k] · w[k, i1]. -/
theorem dot2_apply (h : (⟨S40000x128, .f32⟩ : BufTy).Contents (Elt Ideal)) (w : (⟨S128x64, .f32⟩ : BufTy).Contents (Elt Ideal)) (i : S40000x64.Idx) :
    Host.dotGeneral (F := Ideal) (φ₁ := .f32) (φ₂ := .f32) dot_S40000x128_S128x64_S40000x64_1_0_0_1_n_n none h w i
      = ∑ k : Fin 128, h (Cert.KernelIdeal.Spec.rowAt64 i k) * w (Cert.KernelIdeal.Spec.colAt64 i k) := by
  simp only [Host.dotGeneral]
  rw [Ideal.dotGeneral_apply, ← Equiv.sum_comp (ValueIdx.contrEquiv1 dot_S40000x128_S128x64_S40000x64_1_0_0_1_n_n 128 rfl rfl).symm]
  refine Finset.sum_congr rfl fun k _ => ?_
  have hk := ValueIdx.contrEquiv1_symm_val dot_S40000x128_S128x64_S40000x64_1_0_0_1_n_n 128 rfl rfl k
  have el : dot_S40000x128_S128x64_S40000x64_1_0_0_1_n_n.lhsIdx i ((ValueIdx.contrEquiv1 dot_S40000x128_S128x64_S40000x64_1_0_0_1_n_n 128 rfl rfl).symm k) = Cert.KernelIdeal.Spec.rowAt64 i k := funext fun a => Fin.ext (by
    match a with
    | ⟨0, _⟩ => exact left64_row _ _
    | ⟨1, _⟩ => exact (left64_col _ _).trans hk)
  have er : dot_S40000x128_S128x64_S40000x64_1_0_0_1_n_n.rhsIdx i ((ValueIdx.contrEquiv1 dot_S40000x128_S128x64_S40000x64_1_0_0_1_n_n 128 rfl rfl).symm k) = Cert.KernelIdeal.Spec.colAt64 i k := funext fun a => Fin.ext (by
    match a with
    | ⟨0, _⟩ => exact (right64_row _ _).trans hk
    | ⟨1, _⟩ => exact right64_col _ _)
  rw [el, er]

theorem dot2_eq (h : (⟨S40000x128, .f32⟩ : BufTy).Contents (Elt Ideal)) (w : (⟨S128x64, .f32⟩ : BufTy).Contents (Elt Ideal)) :
    Host.dotGeneral (F := Ideal) (φ₁ := .f32) (φ₂ := .f32) dot_S40000x128_S128x64_S40000x64_1_0_0_1_n_n none h w = Cert.KernelIdeal.Spec.mm64 h w := by
  funext i
  rw [dot2_apply]
  rfl

end Cert.ReferenceIdeal.RefDot

end
-- ==== Proof.lean ====
/-
  Two graph-convolution layers, out = agg (relu (agg (x · W1) b1) · W2) b2, where agg h b scatter-adds at every edge's
  destination the row of h at the edge's source scaled by the edge's symmetric degree normalisation and adds the bias b.
  The kernel program computes the two matrix products in row-tiled regions (eight blocks of 5000 rows, the weight
  resident) and everything else by the same host operations as the reference, the normalisation once instead of twice.
  At the extended reals a block-tiled product into a zero accumulator and the host's product are the same sum over the
  contracted axis, so both programs end with `Spec.gcn` of the six arguments: no algebraic law beyond that, and no
  finiteness, is needed. The three frames are the generated ones (the reference's its run with the result dropped);
  the idealization ledger is empty.
-/
import proofs.«100928_j65481071395456_1_alg».proof.Defs
import proofs.«100928_j65481071395456_1_alg».proof.Proof.Gen.Kernel.Frame
import proofs.«100928_j65481071395456_1_alg».proof.Proof.Gen.KernelIdeal.Frame
import proofs.«100928_j65481071395456_1_alg».proof.Proof.Gen.Pre_finite_inputs
import proofs.«100928_j65481071395456_1_alg».proof.Proof.KernelRun
import proofs.«100928_j65481071395456_1_alg».proof.Proof.KernelVal
import proofs.«100928_j65481071395456_1_alg».proof.Proof.RefRun
import proofs.«100928_j65481071395456_1_alg».proof.Proof.RefSide
import proofs.«100928_j65481071395456_1_alg».proof.Proof.RefDot
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The reference's composed term is `Spec.gcn` of its arguments: the layers around its two host products, each
    product the plain sum over the contracted axis. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v94 (F := Ideal) m' c
      = Cert.KernelIdeal.Spec.gcn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [Cert.ReferenceIdeal.RefSide.res_eq]
  unfold Cert.ReferenceIdeal.RefSide.viaSpec Cert.KernelIdeal.Spec.gcn
  rw [Cert.ReferenceIdeal.RefDot.dot1_eq, Cert.ReferenceIdeal.RefDot.dot2_eq]

/-- Both idealized programs, from memories that agree on the arguments, end with `Spec.gcn` of those arguments. -/
theorem algebraic : Cert.algebraic_KernelIdeal_ReferenceIdeal := by
  intro m ρ m' ρ' _ hagree
  refine ⟨fun c => Cert.KernelIdeal.Spec.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelVal.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [reference_result, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
